-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x500000 : Shape := ⟨2, ![2, 500000]⟩
abbrev S500000x64 : Shape := ⟨2, ![500000, 64]⟩
abbrev S4x128x192 : Shape := ⟨3, ![4, 128, 192]⟩
abbrev S4x128 : Shape := ⟨2, ![4, 128]⟩
abbrev S4x1x128 : Shape := ⟨3, ![4, 1, 128]⟩
abbrev S4x1 : Shape := ⟨2, ![4, 1]⟩
abbrev S4x64x128 : Shape := ⟨3, ![4, 64, 128]⟩
abbrev S4x64 : Shape := ⟨2, ![4, 64]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S500000x64 : S_.BroadcastsInDim S500000x64 (![] : Fin 0 → Fin S500000x64.rank)
  reducesTo_S500000x64_S_d0_1 : S500000x64.ReducesTo [0, 1] S_
  bcast_S_S4x128x192 : S_.BroadcastsInDim S4x128x192 (![] : Fin 0 → Fin S4x128x192.rank)
  reducesTo_S4x128x192_S_d0_1_2 : S4x128x192.ReducesTo [0, 1, 2] S_
  bcast_S_S4x128 : S_.BroadcastsInDim S4x128 (![] : Fin 0 → Fin S4x128.rank)
  reducesTo_S4x128_S_d0_1 : S4x128.ReducesTo [0, 1] S_
  bcast_S_S4x1x128 : S_.BroadcastsInDim S4x1x128 (![] : Fin 0 → Fin S4x1x128.rank)
  reducesTo_S4x1x128_S_d0_1_2 : S4x1x128.ReducesTo [0, 1, 2] S_
  bcast_S_S4x1 : S_.BroadcastsInDim S4x1 (![] : Fin 0 → Fin S4x1.rank)
  reducesTo_S4x1_S_d0_1 : S4x1.ReducesTo [0, 1] S_
  bcast_S_S4x64x128 : S_.BroadcastsInDim S4x64x128 (![] : Fin 0 → Fin S4x64x128.rank)
  reducesTo_S4x64x128_S_d0_1_2 : S4x64x128.ReducesTo [0, 1, 2] S_
  bcast_S_S4x64 : S_.BroadcastsInDim S4x64 (![] : Fin 0 → Fin S4x64.rank)
  reducesTo_S4x64_S_d0_1 : S4x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64x64 .f32) (main_arg13 : FVec F S64 .f32) (main_arg14 : FVec F S64x64 .f32) (main_arg15 : FVec F S64 .f32) (main_v48 : IVec S_ 1) (main_v49 : FVec F S4x64 .f32) (main_v50 : FVec F S4x64 .f32) : IVec S_ 1 :=
  let main_v51 : IVec S4x64 1 := cmpf .olt main_v49 main_v50
  let main_c_19 : IVec S_ 1 := constantI S_ 1 1#1
  let main_v52 : IVec S_ 1 := (fun x v => Host.reduce IntOp.andi x v reducesTo_S4x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg14
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg15 main_v63 main_v67

def fn_part2 {F : FTy → Type} [FloatOps F] (main_arg8 : FVec F S4x128x192 .f32) (main_arg9 : FVec F S4x128 .f32) (main_arg10 : FVec F S4x64x128 .f32) (main_arg11 : FVec F S4x64 .f32) (main_arg12 : FVec F S64x64 .f32) (main_arg13 : FVec F S64 .f32) (main_arg14 : FVec F S64x64 .f32) (main_arg15 : FVec F S64 .f32) (main_v33 : IVec S_ 1) : IVec S_ 1 :=
  let main_v34 : FVec F S4x128x192 .f32 := Host.absf main_arg8
  let main_cst_12 : FVec F S_ .f32 := constant S_ .f32 0x7F800000#32
  let main_v35 : FVec F S4x128x192 .f32 := broadcastInDim S4x128x192 ![] bcast_S_S4x128x192 main_cst_12
  let main_v36 : IVec S4x128x192 1 := cmpf .olt main_v34 main_v35
  let main_c_13 : IVec S_ 1 := constantI S_ 1 1#1
  let main_v37 : IVec S_ 1 := (fun x v => Host.reduce IntOp.andi x v reducesTo_S4x128x192_S_d0_1_2 h_S_) main_v36 main_c_13
  let main_v38 : IVec S_ 1 := andi main_v33 main_v37
  let main_v39 : FVec F S4x128 .f32 := Host.absf main_arg9
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x64x128 .f32 := Host.absf main_arg10
  let main_cst_16 : FVec F S_ .f32 := constant S_ .f32 0x7F800000#32
  let main_v45 : FVec F S4x64x128 .f32 := broadcastInDim S4x64x128 ![] bcast_S_S4x64x128 main_cst_16
  let main_v46 : IVec S4x64x128 1 := cmpf .olt main_v44 main_v45
  let main_c_17 : IVec S_ 1 := constantI S_ 1 1#1
  let main_v47 : IVec S_ 1 := (fun x v => Host.reduce IntOp.andi x v reducesTo_S4x64x128_S_d0_1_2 h_S_) main_v46 main_c_17
  let main_v48 : IVec S_ 1 := andi main_v43 main_v47
  let main_v49 : FVec F S4x64 .f32 := Host.absf main_arg11
  let main_cst_18 : FVec F S_ .f32 := constant S_ .f32 0x7F800000#32
  let main_v50 : FVec F S4x64 .f32 := broadcastInDim S4x64 ![] bcast_S_S4x64 main_cst_18
  fn_part3 (F := F) main_arg12 main_arg13 main_arg14 main_arg15 main_v48 main_v49 main_v50

def fn_part1 {F : FTy → Type} [FloatOps F] (main_arg5 : FVec F S4x128 .f32) (main_arg6 : FVec F S4x1x128 .f32) (main_arg7 : FVec F S4x1 .f32) (main_arg8 : FVec F S4x128x192 .f32) (main_arg9 : FVec F S4x128 .f32) (main_arg10 : FVec F S4x64x128 .f32) (main_arg11 : FVec F S4x64 .f32) (main_arg12 : FVec F S64x64 .f32) (main_arg13 : FVec F S64 .f32) (main_arg14 : FVec F S64x64 .f32) (main_arg15 : FVec F S64 .f32) (main_v13 : IVec S_ 1) (main_v16 : IVec S4x128x192 1) : IVec S_ 1 :=
  let main_c_5 : IVec S_ 1 := constantI S_ 1 1#1
  let main_v17 : IVec S_ 1 := (fun x v => Host.reduce IntOp.andi x v reducesTo_S4x128x192_S_d0_1_2 h_S_) main_v16 main_c_5
  let main_v18 : IVec S_ 1 := andi main_v13 main_v17
  let main_v19 : FVec F S4x128 .f32 := Host.absf main_arg5
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x1x128 .f32 := Host.absf main_arg6
  let main_cst_8 : FVec F S_ .f32 := constant S_ .f32 0x7F800000#32
  let main_v25 : FVec F S4x1x128 .f32 := broadcastInDim S4x1x128 ![] bcast_S_S4x1x128 main_cst_8
  let main_v26 : IVec S4x1x128 1 := cmpf .olt main_v24 main_v25
  let main_c_9 : IVec S_ 1 := constantI S_ 1 1#1
  let main_v27 : IVec S_ 1 := (fun x v => Host.reduce IntOp.andi x v reducesTo_S4x1x128_S_d0_1_2 h_S_) main_v26 main_c_9
  let main_v28 : IVec S_ 1 := andi main_v23 main_v27
  let main_v29 : FVec F S4x1 .f32 := Host.absf main_arg7
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x500000 32) (main_arg2 : FVec F S500000x64 .f32) (main_arg3 : FVec F S50000x64 .f32) (main_arg4 : FVec F S4x128x192 .f32) (main_arg5 : FVec F S4x128 .f32) (main_arg6 : FVec F S4x1x128 .f32) (main_arg7 : FVec F S4x1 .f32) (main_arg8 : FVec F S4x128x192 .f32) (main_arg9 : FVec F S4x128 .f32) (main_arg10 : FVec F S4x64x128 .f32) (main_arg11 : FVec F S4x64 .f32) (main_arg12 : FVec F S64x64 .f32) (main_arg13 : FVec F S64 .f32) (main_arg14 : FVec F S64x64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S500000x64 .f32 := Host.absf main_arg2
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S4x128x192 .f32 := Host.absf main_arg4
  let main_cst_4 : FVec F S_ .f32 := constant S_ .f32 0x7F800000#32
  let main_v15 : FVec F S4x128x192 .f32 := broadcastInDim S4x128x192 ![] bcast_S_S4x128x192 main_cst_4
  let main_v16 : IVec S4x128x192 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x500000 : Shape := ⟨2, ![2, 500000]⟩
abbrev S500000x64 : Shape := ⟨2, ![500000, 64]⟩
abbrev S4x128x192 : Shape := ⟨3, ![4, 128, 192]⟩
abbrev S4x128 : Shape := ⟨2, ![4, 128]⟩
abbrev S4x1x128 : Shape := ⟨3, ![4, 1, 128]⟩
abbrev S4x1 : Shape := ⟨2, ![4, 1]⟩
abbrev S4x64x128 : Shape := ⟨3, ![4, 64, 128]⟩
abbrev S4x64 : Shape := ⟨2, ![4, 64]⟩
abbrev S64x64 : Shape := ⟨2, ![64, 64]⟩
abbrev S64 : Shape := ⟨1, ![64]⟩
abbrev S125000x256 : Shape := ⟨2, ![125000, 256]⟩
abbrev S4x4 : Shape := ⟨2, ![4, 4]⟩
abbrev S_ : Shape := ⟨0, ![]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1x64 : Shape := ⟨2, ![1, 64]⟩
abbrev S256 : Shape := ⟨1, ![256]⟩
abbrev S1x256 : Shape := ⟨2, ![1, 256]⟩
abbrev S5000x256 : Shape := ⟨2, ![5000, 256]⟩

abbrev nBuf : Space → Nat
  | .hbm => 48
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S2x500000, .i32⟩
  | .hbm, ⟨2, _⟩ => ⟨S500000x64, .f32⟩
  | .hbm, ⟨3, _⟩ => ⟨S50000x64, .f32⟩
  | .hbm, ⟨4, _⟩ => ⟨S4x128x192, .f32⟩
  | .hbm, ⟨5, _⟩ => ⟨S4x128, .f32⟩
  | .hbm, ⟨6, _⟩ => ⟨S4x1x128, .f32⟩
  | .hbm, ⟨7, _⟩ => ⟨S4x1, .f32⟩
  | .hbm, ⟨8, _⟩ => ⟨S4x128x192, .f32⟩
  | .hbm, ⟨9, _⟩ => ⟨S4x128, .f32⟩
  | .hbm, ⟨10, _⟩ => ⟨S4x64x128, .f32⟩
  | .hbm, ⟨11, _⟩ => ⟨S4x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S125000x256, .f32⟩
  | .hbm, ⟨17, _⟩ => ⟨S64x64, .f32⟩
  | .hbm, ⟨18, _⟩ => ⟨S64x64, .f32⟩
  | .hbm, ⟨19, _⟩ => ⟨S4x4, .i32⟩
  | .hbm, ⟨20, _⟩ => ⟨S4x4, .i32⟩
  | .hbm, ⟨21, _⟩ => ⟨S_, .i32⟩
  | .hbm, ⟨22, _⟩ => ⟨S4x4, .i32⟩
  | .hbm, ⟨23, _⟩ => ⟨S4x4, .i32⟩
  | .hbm, ⟨24, _⟩ => ⟨S4x4, .i1⟩
  | .hbm, ⟨25, _⟩ => ⟨S4x4, .f32⟩
  | .hbm, ⟨26, _⟩ => ⟨S4x1x4x1, .f32⟩
  | .hbm, ⟨27, _⟩ => ⟨S1x64x1x64, .f32⟩
  | .hbm, ⟨28, _⟩ => ⟨S4x64x4x64, .f32⟩
  | .hbm, ⟨29, _⟩ => ⟨S4x64x4x64, .f32⟩
  | .hbm, ⟨30, _⟩ => ⟨S4x64x4x64, .f32⟩
  | .hbm, ⟨31, _⟩ => ⟨S256x256, .f32⟩
  | .hbm, ⟨32, _⟩ => ⟨S4x1x4x1, .f32⟩
  | .hbm, ⟨33, _⟩ => ⟨S1x64x1x64, .f32⟩
  | .hbm, ⟨34, _⟩ => ⟨S4x64x4x64, .f32⟩
  | .hbm, ⟨35, _⟩ => ⟨S4x64x4x64, .f32⟩
  | .hbm, ⟨36, _⟩ => ⟨S4x64x4x64, .f32⟩
  | .hbm, ⟨37, _⟩ => ⟨S256x256, .f32⟩
  | .hbm, ⟨38, _⟩ => ⟨S1x64, .f32⟩
  | .hbm, ⟨39, _⟩ => ⟨S4x64, .f32⟩
  | .hbm, ⟨40, _⟩ => ⟨S256, .f32⟩
  | .hbm, ⟨41, _⟩ => ⟨S1x256, .f32⟩
  | .hbm, ⟨42, _⟩ => ⟨S1x64, .f32⟩
  | .hbm, ⟨43, _⟩ => ⟨S4x64, .f32⟩
  | .hbm, ⟨44, _⟩ => ⟨S256, .f32⟩
  | .hbm, ⟨45, _⟩ => ⟨S1x256, .f32⟩
  | .hbm, ⟨46, _⟩ => ⟨S125000x256, .f32⟩
  | .hbm, ⟨47, _⟩ => ⟨S500000x64, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S5000x256, .f32⟩
  | .local _ .vmem, ⟨7, _⟩ => ⟨S5000x256, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v9 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S500000x64_S125000x256 : S500000x64.ShapeCasts S125000x256
  transposes_S64x64_S64x64_1_0 : S64x64.Transposes [1, 0] S64x64
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S64x64_S1x64x1x64_1_3 : S64x64.BroadcastsInDim S1x64x1x64 (![1, 3] : Fin 2 → Fin S1x64x1x64.rank)
  bcast_S4x1x4x1_S4x64x4x64_0_1_2_3 : S4x1x4x1.BroadcastsInDim S4x64x4x64 (![0, 1, 2, 3] : Fin 4 → Fin S4x64x4x64.rank)
  bcast_S1x64x1x64_S4x64x4x64_0_1_2_3 : S1x64x1x64.BroadcastsInDim S4x64x4x64 (![0, 1, 2, 3] : Fin 4 → Fin S4x64x4x64.rank)
  shapeCasts_S4x64x4x64_S256x256 : S4x64x4x64.ShapeCasts S256x256
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  shapeCasts_S256_S1x256 : S256.ShapeCasts S1x256
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  shapeCasts_S125000x256_S500000x64 : S125000x256.ShapeCasts S500000x64
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S125000x256.size a
  hwx0_0 : ∀ i : grid0.Coords, EltTy.bits .f32 = 32 ∨ (Rect.block (s := S125000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x256.size a ≤ S125000x256.size a
  hwx0_5 : ∀ i : grid0.Coords, EltTy.bits .f32 = 32 ∨ (Rect.block (s := S125000x256) S5000x256.size (cc0_transform_5 i) (hinb0_5 i)).WholeWords (EltTy.packing .f32)

variable [Facts₀]

def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_v0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x500000 : Shape := ⟨2, ![2, 500000]⟩
abbrev S500000x64 : Shape := ⟨2, ![500000, 64]⟩
abbrev S4x128x192 : Shape := ⟨3, ![4, 128, 192]⟩
abbrev S4x128 : Shape := ⟨2, ![4, 128]⟩
abbrev S4x1x128 : Shape := ⟨3, ![4, 1, 128]⟩
abbrev S4x1 : Shape := ⟨2, ![4, 1]⟩
abbrev S4x64x128 : Shape := ⟨3, ![4, 64, 128]⟩
abbrev S4x64 : Shape := ⟨2, ![4, 64]⟩
abbrev S64x64 : Shape := ⟨2, ![64, 64]⟩
abbrev S64 : Shape := ⟨1, ![64]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x192 : Shape := ⟨2, ![500000, 192]⟩
abbrev S500000x4x128 : Shape := ⟨3, ![500000, 4, 128]⟩
abbrev S1x4x128 : Shape := ⟨3, ![1, 4, 128]⟩
abbrev S4x1x500000 : Shape := ⟨3, ![4, 1, 500000]⟩
abbrev S500000x4x1 : Shape := ⟨3, ![500000, 4, 1]⟩
abbrev S1x4x1 : Shape := ⟨3, ![1, 4, 1]⟩
abbrev S4x64x500000 : Shape := ⟨3, ![4, 64, 500000]⟩
abbrev S500000x4x64 : Shape := ⟨3, ![500000, 4, 64]⟩
abbrev S1x4x64 : Shape := ⟨3, ![1, 4, 64]⟩
abbrev S500000x1x1 : Shape := ⟨3, ![500000, 1, 1]⟩
abbrev S1x64 : Shape := ⟨2, ![1, 64]⟩

abbrev nBuf : Space → Nat
  | .hbm => 101
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x500000, .i32⟩
  | .hbm, ⟨2, _⟩ => ⟨S500000x64, .f32⟩
  | .hbm, ⟨3, _⟩ => ⟨S50000x64, .f32⟩
  | .hbm, ⟨4, _⟩ => ⟨S4x128x192, .f32⟩
  | .hbm, ⟨5, _⟩ => ⟨S4x128, .f32⟩
  | .hbm, ⟨6, _⟩ => ⟨S4x1x128, .f32⟩
  | .hbm, ⟨7, _⟩ => ⟨S4x1, .f32⟩
  | .hbm, ⟨8, _⟩ => ⟨S4x128x192, .f32⟩
  | .hbm, ⟨9, _⟩ => ⟨S4x128, .f32⟩
  | .hbm, ⟨10, _⟩ => ⟨S4x64x128, .f32⟩
  | .hbm, ⟨11, _⟩ => ⟨S4x64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S1x500000, .i32⟩
  | .hbm, ⟨17, _⟩ => ⟨S500000, .i32⟩
  | .hbm, ⟨18, _⟩ => ⟨S_, .i32⟩
  | .hbm, ⟨19, _⟩ => ⟨S500000, .i32⟩
  | .hbm, ⟨20, _⟩ => ⟨S500000, .i1⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S500000, .i32⟩
  | .hbm, ⟨25, _⟩ => ⟨S500000x1, .i32⟩
  | .hbm, ⟨26, _⟩ => ⟨S500000x64, .f32⟩
  | .hbm, ⟨27, _⟩ => ⟨S1x500000, .i32⟩
  | .hbm, ⟨28, _⟩ => ⟨S500000, .i32⟩
  | .hbm, ⟨29, _⟩ => ⟨S_, .i32⟩
  | .hbm, ⟨30, _⟩ => ⟨S500000, .i32⟩
  | .hbm, ⟨31, _⟩ => ⟨S500000, .i1⟩
  | .hbm, ⟨32, _⟩ => ⟨S_, .i32⟩
  | .hbm, ⟨33, _⟩ => ⟨S500000, .i32⟩
  | .hbm, ⟨34, _⟩ => ⟨S500000, .i32⟩
  | .hbm, ⟨35, _⟩ => ⟨S500000, .i32⟩
  | .hbm, ⟨36, _⟩ => ⟨S500000x1, .i32⟩
  | .hbm, ⟨37, _⟩ => ⟨S500000x64, .f32⟩
  | .hbm, ⟨38, _⟩ => ⟨S500000x192, .f32⟩
  | .hbm, ⟨39, _⟩ => ⟨S500000x4x128, .f32⟩
  | .hbm, ⟨40, _⟩ => ⟨S1x4x128, .f32⟩
  | .hbm, ⟨41, _⟩ => ⟨S500000x4x128, .f32⟩
  | .hbm, ⟨42, _⟩ => ⟨S500000x4x128, .f32⟩
  | .hbm, ⟨43, _⟩ => ⟨S_, .f32⟩
  | .hbm, ⟨44, _⟩ => ⟨S500000x4x128, .f32⟩
  | .hbm, ⟨45, _⟩ => ⟨S500000x4x128, .i1⟩
  | .hbm, ⟨46, _⟩ => ⟨S_, .f32⟩
  | .hbm, ⟨47, _⟩ => ⟨S500000x4x128, .f32⟩
  | .hbm, ⟨48, _⟩ => ⟨S500000x4x128, .f32⟩
  | .hbm, ⟨49, _⟩ => ⟨S500000x4x128, .f32⟩
  | .hbm, ⟨50, _⟩ => ⟨S4x1x500000, .f32⟩
  | .hbm, ⟨51, _⟩ => ⟨S500000x4x1, .f32⟩
  | .hbm, ⟨52, _⟩ => ⟨S1x4x1, .f32⟩
  | .hbm, ⟨53, _⟩ => ⟨S500000x4x1, .f32⟩
  | .hbm, ⟨54, _⟩ => ⟨S500000x4x1, .f32⟩
  | .hbm, ⟨55, _⟩ => ⟨S500000x4x128, .f32⟩
  | .hbm, ⟨56, _⟩ => ⟨S1x4x128, .f32⟩
  | .hbm, ⟨57, _⟩ => ⟨S500000x4x128, .f32⟩
  | .hbm, ⟨58, _⟩ => ⟨S500000x4x128, .f32⟩
  | .hbm, ⟨59, _⟩ => ⟨S_, .f32⟩
  | .hbm, ⟨60, _⟩ => ⟨S500000x4x128, .f32⟩
  | .hbm, ⟨61, _⟩ => ⟨S500000x4x128, .i1⟩
  | .hbm, ⟨62, _⟩ => ⟨S_, .f32⟩
  | .hbm, ⟨63, _⟩ => ⟨S500000x4x128, .f32⟩
  | .hbm, ⟨64, _⟩ => ⟨S500000x4x128, .f32⟩
  | .hbm, ⟨65, _⟩ => ⟨S500000x4x128, .f32⟩
  | .hbm, ⟨66, _⟩ => ⟨S4x64x500000, .f32⟩
  | .hbm, ⟨67, _⟩ => ⟨S500000x4x64, .f32⟩
  | .hbm, ⟨68, _⟩ => ⟨S1x4x64, .f32⟩
  | .hbm, ⟨69, _⟩ => ⟨S500000x4x64, .f32⟩
  | .hbm, ⟨70, _⟩ => ⟨S500000x4x64, .f32⟩
  | .hbm, ⟨71, _⟩ => ⟨S500000x4x1, .f32⟩
  | .hbm, ⟨72, _⟩ => ⟨S_, .f32⟩
  | .hbm, ⟨73, _⟩ => ⟨S500000x1, .f32⟩
  | .hbm, ⟨74, _⟩ => ⟨S500000x1x1, .f32⟩
  | .hbm, ⟨75, _⟩ => ⟨S500000x4x1, .f32⟩
  | .hbm, ⟨76, _⟩ => ⟨S500000x4x1, .f32⟩
  | .hbm, ⟨77, _⟩ => ⟨S500000x4x64, .f32⟩
  | .hbm, ⟨78, _⟩ => ⟨S500000x4x64, .f32⟩
  | .hbm, ⟨79, _⟩ => ⟨S_, .f32⟩
  | .hbm, ⟨80, _⟩ => ⟨S500000x64, .f32⟩
  | .hbm, ⟨81, _⟩ => ⟨S_, .f32⟩
  | .hbm, ⟨82, _⟩ => ⟨S500000x64, .f32⟩
  | .hbm, ⟨83, _⟩ => ⟨S500000x64, .f32⟩
  | .hbm, ⟨84, _⟩ => ⟨S64x64, .f32⟩
  | .hbm, ⟨85, _⟩ => ⟨S500000x64, .f32⟩
  | .hbm, ⟨86, _⟩ => ⟨S1x64, .f32⟩
  | .hbm, ⟨87, _⟩ => ⟨S500000x64, .f32⟩
  | .hbm, ⟨88, _⟩ => ⟨S500000x64, .f32⟩
  | .hbm, ⟨89, _⟩ => ⟨S_, .f32⟩
  | .hbm, ⟨90, _⟩ => ⟨S500000x64, .f32⟩
  | .hbm, ⟨91, _⟩ => ⟨S500000x64, .i1⟩
  | .hbm, ⟨92, _⟩ => ⟨S_, .f32⟩
  | .hbm, ⟨93, _⟩ => ⟨S500000x64, .f32⟩
  | .hbm, ⟨94, _⟩ => ⟨S500000x64, .f32⟩
  | .hbm, ⟨95, _⟩ => ⟨S500000x64, .f32⟩
  | .hbm, ⟨96, _⟩ => ⟨S64x64, .f32⟩
  | .hbm, ⟨97, _⟩ => ⟨S500000x64, .f32⟩
  | .hbm, ⟨98, _⟩ => ⟨S1x64, .f32⟩
  | .hbm, ⟨99, _⟩ => ⟨S500000x64, .f32⟩
  | .hbm, ⟨100, _⟩ => ⟨S500000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_7 : Ref sig .tc := ⟨.hbm, 79, rfl⟩
abbrev main_v54 : Ref sig .tc := ⟨.hbm, 80, rfl⟩
abbrev main_cst_8 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_9 : Ref sig .tc := ⟨.hbm, 89, rfl⟩
abbrev main_v62 : Ref sig .tc := ⟨.hbm, 90, rfl⟩
abbrev main_v63 : Ref sig .tc := ⟨.hbm, 91, rfl⟩
abbrev main_cst_10 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x64_S500000x192_d1 : Shape.Concatenates [S500000x64, S500000x64, S500000x64] S500000x192 1
  bcast_S4x128_S1x4x128_1_2 : S4x128.BroadcastsInDim S1x4x128 (![1, 2] : Fin 2 → Fin S1x4x128.rank)
  bcast_S1x4x128_S500000x4x128_0_1_2 : S1x4x128.BroadcastsInDim S500000x4x128 (![0, 1, 2] : Fin 3 → Fin S500000x4x128.rank)
  bcast_S_S500000x4x128 : S_.BroadcastsInDim S500000x4x128 (![] : Fin 0 → Fin S500000x4x128.rank)
  transposes_S4x1x500000_S500000x4x1_2_0_1 : S4x1x500000.Transposes [2, 0, 1] S500000x4x1
  bcast_S4x1_S1x4x1_1_2 : S4x1.BroadcastsInDim S1x4x1 (![1, 2] : Fin 2 → Fin S1x4x1.rank)
  bcast_S1x4x1_S500000x4x1_0_1_2 : S1x4x1.BroadcastsInDim S500000x4x1 (![0, 1, 2] : Fin 3 → Fin S500000x4x1.rank)
  transposes_S4x64x500000_S500000x4x64_2_0_1 : S4x64x500000.Transposes [2, 0, 1] S500000x4x64
  bcast_S4x64_S1x4x64_1_2 : S4x64.BroadcastsInDim S1x4x64 (![1, 2] : Fin 2 → Fin S1x4x64.rank)
  bcast_S1x4x64_S500000x4x64_0_1_2 : S1x4x64.BroadcastsInDim S500000x4x64 (![0, 1, 2] : Fin 3 → Fin S500000x4x64.rank)
  reducesTo_S500000x4x1_S500000x1_d1 : S500000x4x1.ReducesTo [1] S500000x1
  h_S_ : 0 < S_.numel
  bcast_S500000x1_S500000x1x1_0_2 : S500000x1.BroadcastsInDim S500000x1x1 (![0, 2] : Fin 2 → Fin S500000x1x1.rank)
  bcast_S500000x1x1_S500000x4x1_0_1_2 : S500000x1x1.BroadcastsInDim S500000x4x1 (![0, 1, 2] : Fin 3 → Fin S500000x4x1.rank)
  bcast_S500000x4x1_S500000x4x64_0_1_2 : S500000x4x1.BroadcastsInDim S500000x4x64 (![0, 1, 2] : Fin 3 → Fin S500000x4x64.rank)
  reducesTo_S500000x4x64_S500000x64_d1 : S500000x4x64.ReducesTo [1] S500000x64
  bcast_S_S500000x64 : S_.BroadcastsInDim S500000x64 (![] : Fin 0 → Fin S500000x64.rank)
  transposes_S64x64_S64x64_1_0 : S64x64.Transposes [1, 0] S64x64
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  gather_S50000x64_S500000x1_S500000x64_1_0_n_n_0_1_164_wf : GatherDims.WF S50000x64 S500000x1 S500000x64 [1] [0] [] [0] [] 1 ![1, 64]
  dot_S500000x192_S4x128x192_S500000x4x128_1_2_0_01_n_n_wf : DotDims.WF S500000x192 S4x128x192 S500000x4x128 [1] [2] [0] [0, 1] [] []
  dot_S4x1x128_S500000x4x128_S4x1x500000_2_2_1_0_0_1_wf : DotDims.WF S4x1x128 S500000x4x128 S4x1x500000 [2] [2] [1] [0] [0] [1]
  dot_S4x64x128_S500000x4x128_S4x64x500000_2_2_1_0_0_1_wf : DotDims.WF S4x64x128 S500000x4x128 S4x64x500000 [2] [2] [1] [0] [0] [1]
  dot_S500000x64_S64x64_S500000x64_1_0_0_1_n_n_wf : DotDims.WF S500000x64 S64x64 S500000x64 [1] [0] [0] [1] [] []

variable [Facts₀]

def gather_S50000x64_S500000x1_S500000x64_1_0_n_n_0_1_164 : GatherDims S50000x64 S500000x1 S500000x64 where
  offsetDims := [1]
  collapsedSliceDims := [0]
  operandBatchingDims := []
  startIndicesBatchingDims := []
  startIndexMap := [0]
  indexVectorDim := 1
  sliceSizes := ![1, 64]
  wf := gather_S50000x64_S500000x1_S500000x64_1_0_n_n_0_1_164_wf
def dot_S500000x192_S4x128x192_S500000x4x128_1_2_0_01_n_n : DotDims S500000x192 S4x128x192 S500000x4x128 where
  lhsContracting := [1]
  rhsContracting := [2]
  lhsNonContracting := [0]
  rhsNonContracting := [0, 1]
  lhsBatch := []
  rhsBatch := []
  wf := dot_S500000x192_S4x128x192_S500000x4x128_1_2_0_01_n_n_wf
def dot_S4x1x128_S500000x4x128_S4x1x500000_2_2_1_0_0_1 : DotDims S4x1x128 S500000x4x128 S4x1x500000 where
  lhsContracting := [2]
  rhsContracting := [2]
  lhsNonContracting := [1]
  rhsNonContracting := [0]
  lhsBatch := [0]
  rhsBatch := [1]
  wf := dot_S4x1x128_S500000x4x128_S4x1x500000_2_2_1_0_0_1_wf
def dot_S4x64x128_S500000x4x128_S4x64x500000_2_2_1_0_0_1 : DotDims S4x64x128 S500000x4x128 S4x64x500000 where
  lhsContracting := [2]
  rhsContracting := [2]
  lhsNonContracting := [1]
  rhsNonContracting := [0]
  lhsBatch := [0]
  rhsBatch := [1]
  wf := dot_S4x64x128_S500000x4x128_S4x64x500000_2_2_1_0_0_1_wf
def dot_S500000x64_S64x64_S500000x64_1_0_0_1_n_n : DotDims S500000x64 S64x64 S500000x64 where
  lhsContracting := [1]
  rhsContracting := [0]
  lhsNonContracting := [0]
  rhsNonContracting := [1]
  lhsBatch := []
  rhsBatch := []
  wf := dot_S500000x64_S64x64_S500000x64_1_0_0_1_n_n_wf

class Facts : Prop extends Facts₀ where

variable [Facts]
-- ==== Proof.Algebra.lean ====
/-
  The pooled two-layer network, as one function of its five arrays, and the algebra that joins the two programs.

  With `E : [500000, 64]` (edge attributes), `W₁ W₂ : [64, 64]`, `b₁ b₂ : [64]` and the activation
  `act z = if z > 0 then z else c · z` (c the single-precision word 0x3C23D70A, about 1/100),
      hidden e k = act (∑ j, E[e, j] · W₁[k, j] + b₁[k]),      pooled e o = ∑ k, hidden e k · W₂[o, k] + b₂[o].
  One program computes exactly this. The other folds four consecutive rows of `E` into one row of 256 lanes,
  multiplies by the 256 × 256 block-diagonal matrix `I₄ ⊗ Wᵀ` and adds the bias tiled four times; a product with a
  block-diagonal matrix only sees the diagonal block of the lane group it lands in (`sum_blockdiag`), so the folded
  network at row `R`, lane `64·a + o` is the pooled one at row `4·R + a`, column `o` (`folded_eq_pooled`).
  Only `0 · x = 0`, `1 · x = x` and the commutative-monoid laws of `+` on the extended reals are used: no entry needs
  to be finite.
-/
import Idealize.ShloMosaic.PureOps.Ideal.Laws
import Idealize.ShloMosaic.Lib.ValueIdx
import Mathlib.Algebra.BigOperators.Fin
import Mathlib.Logic.Equiv.Fin.Basic

noncomputable section

open scoped BigOperators

namespace Cert.Pooling

open Idealize.ShloMosaic Idealize.ShloMosaic.ValueIdx

/-- The activation both programs apply, on extended reals: `z` where `z > 0`, else `c · z`. -/
def act (z : Ideal .f32) : Ideal .f32 :=
  Scalar.select (FloatOps.cmpf .ogt z (Ideal.ofBits .f32 0x00000000#32)) z (Ideal.ofBits .f32 0x3C23D70A#32 * z)

/-- The hidden layer at edge `e`, unit `k`. -/
def hidden (E : (⟨2, ![500000, 64]⟩ : Shape).Idx → EReal) (W1 : (⟨2, ![64, 64]⟩ : Shape).Idx → EReal)
    (b1 : (⟨1, ![64]⟩ : Shape).Idx → EReal) (e : Fin 500000) (k : Fin 64) : EReal :=
  act ((∑ j : Fin 64, E (ix2 e j) * W1 (ix2 k j)) + b1 (ix1 k))

/-- The pooled output at `(e, o)`. -/
def pooled (E : (⟨2, ![500000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal) (e : Fin 500000) (o : Fin 64) : EReal :=
  (∑ k : Fin 64, hidden E W1 b1 e k * W2 (ix2 o k)) + b2 (ix1 o)

/-- Lane `64·a + k` of a 256-lane row. -/
abbrev lane (a : Fin 4) (k : Fin 64) : Fin 256 := ⟨64 * a.val + k.val, by omega⟩

/-- Every lane is `lane a k` for its group `a` and its place `k` in the group. -/
theorem lane_surj (K : Fin 256) : ∃ (a : Fin 4) (k : Fin 64), K = lane a k :=
  ⟨⟨K.val / 64, by omega⟩, ⟨K.val % 64, by omega⟩, Fin.ext (by show K.val = 64 * (K.val / 64) + K.val % 64; omega)⟩

/-- A sum over the 256 lanes is the sum over the four groups of the sums over each group's 64 places. -/
theorem sum_lanes (f : Fin 256 → EReal) : ∑ K : Fin 256, f K = ∑ a : Fin 4, ∑ k : Fin 64, f (lane a k) := by
  rw [← Fintype.sum_prod_type' (f := fun a k => f (lane a k))]
  refine (Fintype.sum_equiv (finProdFinEquiv (m := 4) (n := 64)) _ _ (fun p => ?_)).symm
  refine congrArg f (Fin.ext ?_)
  show 64 * p.1.val + p.2.val = p.2.val + 64 * p.1.val
  omega

/-- A product with a block-diagonal matrix: if the column `g` vanishes outside lane group `a` and is `w` on it, the sum
    over all 256 lanes is the sum over that group. -/
theorem sum_blockdiag (f g : Fin 256 → EReal) (a : Fin 4) (w : Fin 64 → EReal)
    (hg : ∀ (a' : Fin 4) (k : Fin 64), g (lane a' k) = (if a' = a then (1 : EReal) else 0) * w k) :
    ∑ K : Fin 256, f K * g K = ∑ k : Fin 64, f (lane a k) * w k := by
  rw [sum_lanes, Finset.sum_eq_single a]
  · refine Finset.sum_congr rfl fun k _ => ?_
    rw [hg, if_pos rfl, one_mul]
  · intro a' _ ha
    refine Finset.sum_eq_zero fun k _ => ?_
    rw [hg, if_neg ha, zero_mul, mul_zero]
  · intro h; exact absurd (Finset.mem_univ a) h

/-- The folded network at a row of 256 lanes: both layers as products with 256 × 256 matrices and 256-lane biases. -/
def folded (EF : (⟨2, ![125000, 256]⟩ : Shape).Idx → EReal) (A1 : (⟨2, ![256, 256]⟩ : Shape).Idx → EReal)
    (B1 : (⟨2, ![1, 256]⟩ : Shape).Idx → EReal) (A2 : (⟨2, ![256, 256]⟩ : Shape).Idx → EReal)
    (B2 : (⟨2, ![1, 256]⟩ : Shape).Idx → EReal) (R : Fin 125000) (C : Fin 256) : EReal :=
  (∑ K : Fin 256, act ((∑ J : Fin 256, EF (ix2 R J) * A1 (ix2 J K)) + B1 (ix2 0 K)) * A2 (ix2 K C)) + B2 (ix2 0 C)

/-- Row `4·R + a` of the unfolded array. -/
abbrev row (R : Fin 125000) (a : Fin 4) : Fin 500000 := ⟨4 * R.val + a.val, by omega⟩

/-- The folded network on folded data is the pooled network: with `EF` the rows of `E` folded four to a row, `A₁ A₂` the
    block-diagonal `I₄ ⊗ W₁ᵀ`, `I₄ ⊗ W₂ᵀ` (`d` the 4 × 4 identity) and `B₁ B₂` the biases tiled four times, row `R`, lane
    `64·a + o` of the folded result is row `4·R + a`, column `o` of the pooled one. -/
theorem folded_eq_pooled
    (E : (⟨2, ![500000, 64]⟩ : Shape).Idx → EReal) (W1 : (⟨2, ![64, 64]⟩ : Shape).Idx → EReal)
    (b1 : (⟨1, ![64]⟩ : Shape).Idx → EReal) (W2 : (⟨2, ![64, 64]⟩ : Shape).Idx → EReal)
    (b2 : (⟨1, ![64]⟩ : Shape).Idx → EReal)
    (EF : (⟨2, ![125000, 256]⟩ : Shape).Idx → EReal) (A1 : (⟨2, ![256, 256]⟩ : Shape).Idx → EReal)
    (B1 : (⟨2, ![1, 256]⟩ : Shape).Idx → EReal) (A2 : (⟨2, ![256, 256]⟩ : Shape).Idx → EReal)
    (B2 : (⟨2, ![1, 256]⟩ : Shape).Idx → EReal)
    (hE : ∀ (R : Fin 125000) (a : Fin 4) (j : Fin 64), EF (ix2 R (lane a j)) = E (ix2 (row R a) j))
    (hA1 : ∀ (a' : Fin 4) (j : Fin 64) (a : Fin 4) (k : Fin 64),
      A1 (ix2 (lane a' j) (lane a k)) = (if a' = a then (1 : EReal) else 0) * W1 (ix2 k j))
    (hB1 : ∀ (a : Fin 4) (k : Fin 64), B1 (ix2 0 (lane a k)) = b1 (ix1 k))
    (hA2 : ∀ (a' : Fin 4) (k : Fin 64) (a : Fin 4) (o : Fin 64),
      A2 (ix2 (lane a' k) (lane a o)) = (if a' = a then (1 : EReal) else 0) * W2 (ix2 o k))
    (hB2 : ∀ (a : Fin 4) (o : Fin 64), B2 (ix2 0 (lane a o)) = b2 (ix1 o))
    (R : Fin 125000) (a : Fin 4) (o : Fin 64) :
    folded EF A1 B1 A2 B2 R (lane a o) = pooled E W1 b1 W2 b2 (row R a) o := by
  unfold folded pooled
  rw [hB2, sum_blockdiag _ (fun K => A2 (ix2 K (lane a o))) a (fun k => W2 (ix2 o k)) (fun a' k => hA2 a' k a o)]
  refine congrArg (· + b2 (ix1 o)) (Finset.sum_congr rfl fun k _ => ?_)
  refine congrArg (· * W2 (ix2 o k)) ?_
  unfold hidden
  rw [hB1, sum_blockdiag _ (fun J => A1 (ix2 J (lane a k))) a (fun j => W1 (ix2 k j)) (fun a' j => hA1 a' j a k)]
  refine congrArg (fun s => act (s + b1 (ix1 k))) (Finset.sum_congr rfl fun j _ => ?_)
  rw [hE]

end Cert.Pooling

end
-- ==== Proof.BodyValue.lean ====
/-
  What the kernel body stores, at an index. On a block `x₀ : [5000, 256]` of folded rows, the weights `x₁ x₃ : [256, 256]`
  and the biases `x₂ x₄ : [1, 256]`, the one store's value at row `p`, lane `q` is
      ∑ K, act (∑ J, x₀[p, J] · x₁[J, K] + x₂[0, K]) · x₃[K, q] + x₄[0, q]:
  each product into the zero accumulator is the plain sum over the contracted axis, a change of float format is the
  identity on extended reals, and the biases are broadcast along the rows.
-/
import proofs.«413229_j21706764714723_3_alg».proof.Proof.Gen.KernelIdeal.Skeleton
import proofs.«413229_j21706764714723_3_alg».proof.Proof.Algebra
import Idealize.ShloMosaic.Lib.Pipeline.Value
import Idealize.ShloMosaic.Lib.ValueIdx
import Idealize.ShloMosaic.PureOps.Ideal.Laws

noncomputable section

open scoped BigOperators

namespace Cert.KernelIdeal.PoolValue

open Cert.KernelIdeal Cert.KernelIdeal.Gen Idealize.ShloMosaic Idealize.ShloMosaic.ValueIdx Cert.Pooling

/-- The left operand of the body's products is read at the output's row … -/
theorem lhs_row (i : S5000x256.Idx) (q : dot_S5000x256_S256x256_S5000x256_1_0_0_1_n_n.contr.Idx) :
    (dot_S5000x256_S256x256_S5000x256_1_0_0_1_n_n.lhsIdx i q 0).val = (i 0).val := by
  unfold DotDims.lhsIdx
  rw [dif_neg (show ¬(0 : Fin S5000x256.rank) ∈ dot_S5000x256_S256x256_S5000x256_1_0_0_1_n_n.lhsBatch by decide), dif_pos (show (0 : Fin S5000x256.rank) ∈ dot_S5000x256_S256x256_S5000x256_1_0_0_1_n_n.lhsNonContracting by decide)]
  rfl
/-- … and the contracted lane; -/
theorem lhs_lane (i : S5000x256.Idx) (q : dot_S5000x256_S256x256_S5000x256_1_0_0_1_n_n.contr.Idx) :
    (dot_S5000x256_S256x256_S5000x256_1_0_0_1_n_n.lhsIdx i q 1).val = (q ⟨0, by decide⟩).val :=
  dot_S5000x256_S256x256_S5000x256_1_0_0_1_n_n.lhsIdx_val_of_single rfl i q
/-- the right operand at the contracted lane … -/
theorem rhs_lane (i : S5000x256.Idx) (q : dot_S5000x256_S256x256_S5000x256_1_0_0_1_n_n.contr.Idx) :
    (dot_S5000x256_S256x256_S5000x256_1_0_0_1_n_n.rhsIdx i q 0).val = (q ⟨0, by decide⟩).val :=
  dot_S5000x256_S256x256_S5000x256_1_0_0_1_n_n.rhsIdx_val_of_single rfl i q
/-- … and the output's column. -/
theorem rhs_col (i : S5000x256.Idx) (q : dot_S5000x256_S256x256_S5000x256_1_0_0_1_n_n.contr.Idx) :
    (dot_S5000x256_S256x256_S5000x256_1_0_0_1_n_n.rhsIdx i q 1).val = (i 1).val := by
  unfold DotDims.rhsIdx
  rw [dif_neg (show ¬(1 : Fin S256x256.rank) ∈ dot_S5000x256_S256x256_S5000x256_1_0_0_1_n_n.rhsBatch by decide), dif_pos (show (1 : Fin S256x256.rank) ∈ dot_S5000x256_S256x256_S5000x256_1_0_0_1_n_n.rhsNonContracting by decide)]
  rfl

/-- A `[5000, 256] × [256, 256]` product into the zero accumulator, at `(p, q)`: `∑ K, l[p, K] · r[K, q]`. -/
theorem product_apply {φ₁ φ₂ : FTy} (l : FVec Ideal S5000x256 φ₁) (r : FVec Ideal S256x256 φ₂) (p : Fin 5000) (q : Fin 256) :
    matmul dot_S5000x256_S256x256_S5000x256_1_0_0_1_n_n none l r (constant S5000x256 .f32 0x00000000#32) (ix2 p q)
      = ∑ K : Fin 256, l (ix2 p K) * r (ix2 K q) := by
  simp only [matmul]
  rw [Ideal.matmul_constant_zero_apply, ← Equiv.sum_comp (ValueIdx.contrEquiv1 dot_S5000x256_S256x256_S5000x256_1_0_0_1_n_n 256 rfl rfl).symm]
  refine Finset.sum_congr rfl fun K _ => ?_
  have hK := ValueIdx.contrEquiv1_symm_val dot_S5000x256_S256x256_S5000x256_1_0_0_1_n_n 256 rfl rfl K
  have el : dot_S5000x256_S256x256_S5000x256_1_0_0_1_n_n.lhsIdx (ix2 p q) ((ValueIdx.contrEquiv1 dot_S5000x256_S256x256_S5000x256_1_0_0_1_n_n 256 rfl rfl).symm K) = ix2 p K := funext fun a => Fin.ext (by
    match a with
    | ⟨0, _⟩ => exact lhs_row _ _
    | ⟨1, _⟩ => exact (lhs_lane _ _).trans hK)
  have er : dot_S5000x256_S256x256_S5000x256_1_0_0_1_n_n.rhsIdx (ix2 p q) ((ValueIdx.contrEquiv1 dot_S5000x256_S256x256_S5000x256_1_0_0_1_n_n 256 rfl rfl).symm K) = ix2 K q := funext fun a => Fin.ext (by
    match a with
    | ⟨0, _⟩ => exact (rhs_lane _ _).trans hK
    | ⟨1, _⟩ => exact rhs_col _ _)
  rw [el, er]

/-- A `[1, 256]` bias broadcast along the 5000 rows, at `(p, q)`: its lane `q`. -/
theorem bias_row_apply (b : FVec Ideal S1x256 .f32) (p : Fin 5000) (q : Fin 256) :
    broadcastTo S5000x256 b broadcasts_S1x256_S5000x256 (ix2 p q) = b (ix2 0 q) :=
  broadcastTo_apply b broadcasts_S1x256_S5000x256 (ix2 p q) (ix2 (0 : Fin 1) q) (fun d => match d with
    | ⟨0, _⟩ => by show (0 : Nat) = if (1 : Nat) = 1 then 0 else _; rw [if_pos rfl]
    | ⟨1, _⟩ => by show q.val = if (256 : Nat) = 1 then 0 else q.val; rw [if_neg (by decide)])

/-- One layer before its activation, at `(p, K)`. -/
theorem layer_apply {φ₁ φ₂ : FTy} (l : FVec Ideal S5000x256 φ₁) (r : FVec Ideal S256x256 φ₂) (b : FVec Ideal S1x256 .f32) (p : Fin 5000) (K : Fin 256) :
    addf (matmul dot_S5000x256_S256x256_S5000x256_1_0_0_1_n_n none l r (constant S5000x256 .f32 0x00000000#32))
        (broadcastTo S5000x256 b broadcasts_S1x256_S5000x256) (ix2 p K)
      = (∑ J : Fin 256, l (ix2 p J) * r (ix2 J K)) + b (ix2 0 K) := by
  rw [ValueIdx.addf_apply, product_apply, bias_row_apply]

/-- The body's stored value at row `p`, lane `q` of the block. -/
theorem stored_apply (x0 : Vec Ideal S5000x256 .f32) (x1 : Vec Ideal S256x256 .f32) (x2 : Vec Ideal S1x256 .f32)
    (x3 : Vec Ideal S256x256 .f32) (x4 : Vec Ideal S1x256 .f32) (p : Fin 5000) (q : Fin 256) :
    k0_pay1 (F := Ideal) x0 x1 x2 x3 x4 (ix2 p q)
      = (∑ K : Fin 256, act ((∑ J : Fin 256, x0 (ix2 p J) * x1 (ix2 J K)) + x2 (ix2 0 K)) * x3 (ix2 K q)) + x4 (ix2 0 q) := by
  unfold k0_pay1
  simp only [shapeCast_self]
  refine (layer_apply _ _ x4 p q).trans ?_
  refine congrArg (· + x4 (ix2 0 q)) (Finset.sum_congr rfl fun K _ => ?_)
  refine congrArg (· * x3 (ix2 K q)) ?_
  show Scalar.select (FloatOps.cmpf .ogt (addf _ _ (ix2 p K)) _) (addf _ _ (ix2 p K)) (_ * addf _ _ (ix2 p K)) = _
  rw [layer_apply]
  rfl

end Cert.KernelIdeal.PoolValue

end
-- ==== Proof.HostLayout.lean ====
/-
  The arrays the region is launched on, and the line after it, read at an index.

  * The data: `E : [500000, 64]` reshaped to `[125000, 256]` puts row `4·R + a`, column `j` at row `R`, lane `64·a + j`
    (both are position `256·R + 64·a + j` of the row-major order).
  * A weight: the Kronecker product `I₄ ⊗ Wᵀ`, built as the product of the two factors broadcast to `[4, 64, 4, 64]` and
    reshaped to `[256, 256]`, holds `δ(a', a) · W[k, j]` at row `64·a' + j`, column `64·a + k`; the identity `I₄` is
    `iota₀ = iota₁` converted to a float.
  * A bias: `b : [64]` tiled four times holds `b[k]` at lane `64·a + k`.
  * The tail: `[125000, 256]` reshaped back to `[500000, 64]` reads row `e / 4`, lane `64·(e mod 4) + o` at `(e, o)`.
-/
import proofs.«413229_j21706764714723_3_alg».proof.KernelIdeal
import proofs.«413229_j21706764714723_3_alg».proof.Proof.Algebra
import Idealize.ShloMosaic.Lib.Pipeline.Value
import Idealize.ShloMosaic.Lib.IdealHost

noncomputable section

namespace Cert.KernelIdeal.PoolValue

open Cert.KernelIdeal Idealize.ShloMosaic Idealize.ShloMosaic.ValueIdx Cert.Pooling

variable [Facts]
open Facts₀ Facts

/-- The folded data: row `R`, lane `64·a + j` is row `4·R + a`, column `j`. -/
theorem folded_data_apply (E : S500000x64.Idx → EReal) (R : Fin 125000) (a : Fin 4) (j : Fin 64) :
    shapeCast S125000x256 E shapeCasts_S500000x64_S125000x256 (ix2 R (lane a j)) = E (ix2 (row R a) j) :=
  shapeCast_apply E shapeCasts_S500000x64_S125000x256 (ix2 R (lane a j)) (ix2 (row R a) j) (by
    rw [Shape.rowMajor_val_two, Shape.rowMajor_val_two]
    show (4 * R.val + a.val) * 64 + j.val = R.val * 256 + (64 * a.val + j.val)
    omega)

/-- The unfolding tail: `(e, o)` reads row `e / 4`, lane `64·(e mod 4) + o`. -/
theorem unfolded_apply (Y : S125000x256.Idx → EReal) (R : Fin 125000) (a : Fin 4) (o : Fin 64) :
    shapeCast S500000x64 Y shapeCasts_S125000x256_S500000x64 (ix2 (row R a) o) = Y (ix2 R (lane a o)) :=
  shapeCast_apply Y shapeCasts_S125000x256_S500000x64 (ix2 (row R a) o) (ix2 R (lane a o)) (by
    rw [Shape.rowMajor_val_two, Shape.rowMajor_val_two]
    show R.val * 256 + (64 * a.val + o.val) = (4 * R.val + a.val) * 64 + o.val
    omega)

/-- A bias tiled four times: lane `64·a + k` holds `b[k]`. -/
theorem tiled_bias_apply (b : S64.Idx → EReal) (a : Fin 4) (k : Fin 64) :
    shapeCast S1x256 (shapeCast S256 (broadcastInDim S4x64 ![0, 1] bcast_S1x64_S4x64_0_1
        (shapeCast S1x64 b shapeCasts_S64_S1x64)) shapeCasts_S4x64_S256) shapeCasts_S256_S1x256 (ix2 0 (lane a k))
      = b (ix1 k) := by
  rw [shapeCast_apply _ shapeCasts_S256_S1x256 (ix2 0 (lane a k)) (ix1 (lane a k)) (by
        rw [Shape.rowMajor_val_one, Shape.rowMajor_val_two]
        show 64 * a.val + k.val = 0 * 256 + (64 * a.val + k.val)
        omega),
    shapeCast_apply _ shapeCasts_S4x64_S256 (ix1 (lane a k)) (ix2 a k) (by
        rw [Shape.rowMajor_val_two, Shape.rowMajor_val_one]
        show a.val * 64 + k.val = 64 * a.val + k.val
        omega),
    broadcastInDim_apply _ bcast_S1x64_S4x64_0_1 _ (ix2 a k) (ix2 (0 : Fin 1) k) (fun d => match d with
      | ⟨0, _⟩ => by show (0 : Nat) = if (1 : Nat) = 1 then 0 else a.val; rw [if_pos rfl]
      | ⟨1, _⟩ => by show k.val = if (64 : Nat) = 1 then 0 else k.val; rw [if_neg (by decide)]),
    shapeCast_apply b shapeCasts_S64_S1x64 (ix2 (0 : Fin 1) k) (ix1 k) (by
        rw [Shape.rowMajor_val_one, Shape.rowMajor_val_two]
        show k.val = 0 * 64 + k.val
        omega)]

/-- The 4 × 4 identity as the host builds it: the word `iota₀ + 0 = iota₁` widened, one on the diagonal and zero off it. -/
theorem eye_word (a' a : Fin 4) :
    (IntOp.cmpi .eq (IntOp.addi (BitVec.ofNat 32 a'.val) 0#32) (BitVec.ofNat 32 a.val)).toNat = if a' = a then 1 else 0 := by
  fin_cases a' <;> fin_cases a <;> rfl

/-- The 4 × 4 identity matrix of the host, at an entry. -/
theorem eye_apply (a' a : Fin 4) :
    uitofp (F := Ideal) .f32 (cmpi .eq (addi (iotaInDim S4x4 32 0) (broadcastInDim S4x4 ![] bcast_S_S4x4 (constantI S_ 32 0#32)))
      (iotaInDim S4x4 32 1)) (ix2 a' a) = if a' = a then (1 : EReal) else 0 := by
  show (((IntOp.cmpi .eq (IntOp.addi (BitVec.ofNat 32 a'.val) 0#32) (BitVec.ofNat 32 a.val)).toNat : ℝ) : EReal) = _
  rw [eye_word]
  by_cases h : a' = a
  · rw [if_pos h, if_pos h]; norm_num
  · rw [if_neg h, if_neg h]; norm_num

/-- The block-diagonal weight `I₄ ⊗ Wᵀ`: row `64·a' + j`, column `64·a + k` holds `δ(a', a) · W[k, j]`. -/
theorem blockdiag_apply (I4 : S4x4.Idx → EReal) (W : S64x64.Idx → EReal) (a' : Fin 4) (j : Fin 64) (a : Fin 4) (k : Fin 64) :
    shapeCast S256x256 (mulf (F := Ideal) (φ := .f32)
        (broadcastInDim S4x64x4x64 ![0, 1, 2, 3] bcast_S4x1x4x1_S4x64x4x64_0_1_2_3 (broadcastInDim S4x1x4x1 ![0, 2] bcast_S4x4_S4x1x4x1_0_2 I4))
        (broadcastInDim S4x64x4x64 ![0, 1, 2, 3] bcast_S1x64x1x64_S4x64x4x64_0_1_2_3 (broadcastInDim S1x64x1x64 ![1, 3] bcast_S64x64_S1x64x1x64_1_3
          (transpose S64x64 [1, 0] W transposes_S64x64_S64x64_1_0)))) shapeCasts_S4x64x4x64_S256x256 (ix2 (lane a' j) (lane a k))
      = I4 (ix2 a' a) * W (ix2 k j) := by
  rw [shapeCast_apply _ shapeCasts_S4x64x4x64_S256x256 (ix2 (lane a' j) (lane a k)) (ix4 a' j a k) (by
        rw [Shape.rowMajor_val_four, Shape.rowMajor_val_two]
        show ((a'.val * 64 + j.val) * 4 + a.val) * 64 + k.val = (64 * a'.val + j.val) * 256 + (64 * a.val + k.val)
        omega)]
  rw [ValueIdx.mulf_apply, broadcastInDim_apply _ bcast_S4x1x4x1_S4x64x4x64_0_1_2_3 _ (ix4 a' j a k) (ix4 a' (0 : Fin 1) a (0 : Fin 1)) (fun d => match d with
      | ⟨0, _⟩ => by show a'.val = if (4 : Nat) = 1 then 0 else a'.val; rw [if_neg (by decide)]
      | ⟨1, _⟩ => by show (0 : Nat) = if (1 : Nat) = 1 then 0 else j.val; rw [if_pos rfl]
      | ⟨2, _⟩ => by show a.val = if (4 : Nat) = 1 then 0 else a.val; rw [if_neg (by decide)]
      | ⟨3, _⟩ => by show (0 : Nat) = if (1 : Nat) = 1 then 0 else k.val; rw [if_pos rfl]),
    broadcastInDim_apply _ bcast_S4x4_S4x1x4x1_0_2 I4 (ix4 a' (0 : Fin 1) a (0 : Fin 1)) (ix2 a' a) (fun d => match d with
      | ⟨0, _⟩ => by show a'.val = if (4 : Nat) = 1 then 0 else a'.val; rw [if_neg (by decide)]
      | ⟨1, _⟩ => by show a.val = if (4 : Nat) = 1 then 0 else a.val; rw [if_neg (by decide)]),
    broadcastInDim_apply _ bcast_S1x64x1x64_S4x64x4x64_0_1_2_3 _ (ix4 a' j a k) (ix4 (0 : Fin 1) j (0 : Fin 1) k) (fun d => match d with
      | ⟨0, _⟩ => by show (0 : Nat) = if (1 : Nat) = 1 then 0 else a'.val; rw [if_pos rfl]
      | ⟨1, _⟩ => by show j.val = if (64 : Nat) = 1 then 0 else j.val; rw [if_neg (by decide)]
      | ⟨2, _⟩ => by show (0 : Nat) = if (1 : Nat) = 1 then 0 else a.val; rw [if_pos rfl]
      | ⟨3, _⟩ => by show k.val = if (64 : Nat) = 1 then 0 else k.val; rw [if_neg (by decide)]),
    broadcastInDim_apply _ bcast_S64x64_S1x64x1x64_1_3 _ (ix4 (0 : Fin 1) j (0 : Fin 1) k) (ix2 j k) (fun d => match d with
      | ⟨0, _⟩ => by show j.val = if (64 : Nat) = 1 then 0 else j.val; rw [if_neg (by decide)]
      | ⟨1, _⟩ => by show k.val = if (64 : Nat) = 1 then 0 else k.val; rw [if_neg (by decide)]),
    transpose_apply [1, 0] W transposes_S64x64_S64x64_1_0 (ix2 j k) (ix2 k j) (fun d => match d with
      | ⟨0, _⟩ => rfl
      | ⟨1, _⟩ => rfl)]

end Cert.KernelIdeal.PoolValue

end
-- ==== Proof.RegionValue.lean ====
/-
  The kernel's result as one function of the arguments.

  The region's output array `[125000, 256]` is written block by block: point `t` of the 25 writes rows
  `5000·t … 5000·t + 4999`, and what it writes at row `p`, lane `q` of its block is the folded network (Algebra.lean) of
  the arrays the region is launched on, at row `5000·t + p`, lane `q`: the data window moves with the output window, the
  weights and biases are whole arrays at every point. The 25 blocks tile the array, so it ends at the folded network
  everywhere; the line after the region unfolds it to `[500000, 64]`, and with the launch arrays read at an index
  (HostLayout.lean) that is the pooled network of the arguments.
-/
import proofs.«413229_j21706764714723_3_alg».proof.Proof.Gen.KernelIdeal.Frame
import proofs.«413229_j21706764714723_3_alg».proof.Proof.BodyValue
import proofs.«413229_j21706764714723_3_alg».proof.Proof.HostLayout
import Idealize.ShloMosaic.Lib.StableHlo.Run

set_option maxRecDepth 16384

noncomputable section

open scoped BigOperators

namespace Cert.KernelIdeal.PoolValue

open Cert.KernelIdeal Cert.KernelIdeal.Gen Idealize.ShloMosaic Idealize.ShloMosaic.TcCoe Idealize.SL.Sem
open Idealize.ShloMosaic.StableHlo Idealize.ShloMosaic.ValueIdx Cert.Pooling
open Idealize.ShloMosaic.Pipeline (Dat)

variable (m : (ℓ : Loc nD τ sig) → Buf (Elt Ideal) ℓ) (ρ : Dev nD → PrngReg)

/-! ## The arrays the region is launched on -/

/-- The data window's array: the edge attributes folded four rows to a row. -/
theorem launch_data (c : Dev nD) : (V m c main_v0 : S125000x256.Idx → EReal)
    = shapeCast S125000x256 (m ((c : Thread nD τ).loc main_arg2)) shapeCasts_S500000x64_S125000x256 := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-- The 4 × 4 identity the host builds. -/
abbrev eye4 : S4x4.Idx → EReal :=
  uitofp (F := Ideal) .f32 (cmpi .eq (addi (iotaInDim S4x4 32 0) (broadcastInDim S4x4 ![] bcast_S_S4x4 (constantI S_ 32 0#32))) (iotaInDim S4x4 32 1))

/-- The Kronecker product of the identity with a transposed weight, as the host spells it. -/
abbrev kronT (W : S64x64.Idx → EReal) : S256x256.Idx → EReal :=
  shapeCast S256x256 (mulf (F := Ideal) (φ := .f32)
    (broadcastInDim S4x64x4x64 ![0, 1, 2, 3] bcast_S4x1x4x1_S4x64x4x64_0_1_2_3 (broadcastInDim S4x1x4x1 ![0, 2] bcast_S4x4_S4x1x4x1_0_2 eye4))
    (broadcastInDim S4x64x4x64 ![0, 1, 2, 3] bcast_S1x64x1x64_S4x64x4x64_0_1_2_3 (broadcastInDim S1x64x1x64 ![1, 3] bcast_S64x64_S1x64x1x64_1_3
      (transpose S64x64 [1, 0] W transposes_S64x64_S64x64_1_0)))) shapeCasts_S4x64x4x64_S256x256

/-- A bias tiled four times, as the host spells it. -/
abbrev tiled (b : S64.Idx → EReal) : S1x256.Idx → EReal :=
  shapeCast S1x256 (shapeCast S256 (broadcastInDim S4x64 ![0, 1] bcast_S1x64_S4x64_0_1 (shapeCast S1x64 b shapeCasts_S64_S1x64)) shapeCasts_S4x64_S256) shapeCasts_S256_S1x256

/-- The first layer's weight window. -/
theorem launch_w1 (c : Dev nD) : (V m c main_v9 : S256x256.Idx → EReal) = kronT (m ((c : Thread nD τ).loc main_arg12)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl
/-- The second layer's weight window. -/
theorem launch_w2 (c : Dev nD) : (V m c main_v10 : S256x256.Idx → EReal) = kronT (m ((c : Thread nD τ).loc main_arg14)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl
/-- The first layer's bias window. -/
theorem launch_b1 (c : Dev nD) : (V m c main_v14 : S1x256.Idx → EReal) = tiled (m ((c : Thread nD τ).loc main_arg13)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl
/-- The second layer's bias window. -/
theorem launch_b2 (c : Dev nD) : (V m c main_v18 : S1x256.Idx → EReal) = tiled (m ((c : Thread nD τ).loc main_arg15)) := by
  dsimp only [Gen.V, Gen.V0]
  simp only [Gen.hostOps0, Gen.hostOps0_1, Gen.hostOps0_2, Gen.hostOps0_3, List.flatten_cons, List.flatten_nil, List.append_nil, List.cons_append, List.nil_append]
  after_results
  rfl

/-! ## From the blocks to the array -/

/-- The folded network of the launch arrays, over the whole output array. -/
def foldedArr (c : Dev nD) : S125000x256.Idx → EReal := fun i =>
  folded (V m c main_v0) (V m c main_v9) (V m c main_v14) (V m c main_v10) (V m c main_v18) (i 0) (i 1)

theorem origin : (![0, 0] : Fin 2 → Nat) = fun _ => 0 := funext fun a => by fin_cases a <;> rfl

/-- The printed index maps over the 25 points: the data and output windows are at block row `t`, the weights and biases at
    block `(0, 0)`. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point `t` writes back is block `t` of the folded network of the launch arrays. -/
theorem flushed_eq (c : Dev nD) (t : Fin cfg0.N) :
    (dats m 0 c).flushed 5 t = ((cfg0.win 5).blk t).view.read (Elt Ideal) (foldedArr m c) := by
  show (cfg0.win 5).cut (grid0.coords t) ((dats m 0 c).after 5 t) = _
  rw [after0_5]
  unfold out0_5
  rw [View.canon_unit_zero origin]
  simp only [View.ld_unit_zero (S := S5000x256) origin, View.ld_unit_zero (S := S256x256) origin, View.ld_unit_zero (S := S1x256) origin]
  obtain ⟨e00, e01, e10, e11, e20, e21, e30, e31, e40, e41, e50, e51⟩ := index_facts t
  have ht : t.val < 25 := lt_of_lt_of_eq t.isLt N_0
  funext j
  obtain ⟨p, q, rfl⟩ : ∃ (p : Fin 5000) (q : Fin 256), j = ix2 p q := ⟨j 0, j 1, eq_ix2 j⟩
  refine (stored_apply (iblk m c 0 t) (iblk m c 1 t) (iblk m c 2 t) (iblk m c 3 t) (iblk m c 4 t) p q).trans ?_
  have hp : p.val < 5000 := p.isLt
  let R : Fin 125000 := ⟨5000 * t.val + p.val, by omega⟩
  have hout : ((cfg0.win 5).blk t).view.emb (ix2 p q) = ix2 R q := by
    funext a; apply Fin.ext
    match a with
    | ⟨0, _⟩ => show win0_5.index t (0 : Fin 2) * 5000 + 1 * p.val = 5000 * t.val + p.val; omega
    | ⟨1, _⟩ => show win0_5.index t (1 : Fin 2) * 256 + 1 * q.val = q.val; omega
  have h0 : ∀ J : Fin 256, iblk m c 0 t (ix2 p J) = V m c main_v0 (ix2 R J) := fun J => by
    show V m c main_v0 (((cfg0.win 0).blk t).view.emb (ix2 p J)) = V m c main_v0 (ix2 R J)
    refine congrArg _ (funext fun a => Fin.ext ?_)
    match a with
    | ⟨0, _⟩ => show win0_0.index t (0 : Fin 2) * 5000 + 1 * p.val = 5000 * t.val + p.val; omega
    | ⟨1, _⟩ => show win0_0.index t (1 : Fin 2) * 256 + 1 * J.val = J.val; omega
  have h1 : ∀ J K : Fin 256, iblk m c 1 t (ix2 J K) = V m c main_v9 (ix2 J K) := fun J K => by
    show V m c main_v9 (((cfg0.win 1).blk t).view.emb (ix2 J K)) = V m c main_v9 (ix2 J K)
    refine congrArg _ (funext fun a => Fin.ext ?_)
    match a with
    | ⟨0, _⟩ => show win0_1.index t (0 : Fin 2) * 256 + 1 * J.val = J.val; omega
    | ⟨1, _⟩ => show win0_1.index t (1 : Fin 2) * 256 + 1 * K.val = K.val; omega
  have h2 : ∀ K : Fin 256, iblk m c 2 t (ix2 0 K) = V m c main_v14 (ix2 0 K) := fun K => by
    show V m c main_v14 (((cfg0.win 2).blk t).view.emb (ix2 0 K)) = V m c main_v14 (ix2 0 K)
    refine congrArg _ (funext fun a => Fin.ext ?_)
    match a with
    | ⟨0, _⟩ => show win0_2.index t (0 : Fin 2) * 1 + 1 * 0 = 0; omega
    | ⟨1, _⟩ => show win0_2.index t (1 : Fin 2) * 256 + 1 * K.val = K.val; omega
  have h3 : ∀ J K : Fin 256, iblk m c 3 t (ix2 J K) = V m c main_v10 (ix2 J K) := fun J K => by
    show V m c main_v10 (((cfg0.win 3).blk t).view.emb (ix2 J K)) = V m c main_v10 (ix2 J K)
    refine congrArg _ (funext fun a => Fin.ext ?_)
    match a with
    | ⟨0, _⟩ => show win0_3.index t (0 : Fin 2) * 256 + 1 * J.val = J.val; omega
    | ⟨1, _⟩ => show win0_3.index t (1 : Fin 2) * 256 + 1 * K.val = K.val; omega
  have h4 : ∀ K : Fin 256, iblk m c 4 t (ix2 0 K) = V m c main_v18 (ix2 0 K) := fun K => by
    show V m c main_v18 (((cfg0.win 4).blk t).view.emb (ix2 0 K)) = V m c main_v18 (ix2 0 K)
    refine congrArg _ (funext fun a => Fin.ext ?_)
    match a with
    | ⟨0, _⟩ => show win0_4.index t (0 : Fin 2) * 1 + 1 * 0 = 0; omega
    | ⟨1, _⟩ => show win0_4.index t (1 : Fin 2) * 256 + 1 * K.val = K.val; omega
  show _ = foldedArr m c (((cfg0.win 5).blk t).view.emb (ix2 p q))
  rw [hout]
  unfold foldedArr folded
  simp only [h0, h1, h2, h3, h4]

/-- An index of the output array is in point `t`'s block iff each coordinate is in the block's range on its axis. -/
theorem mem_block (t : Fin cfg0.N) (i : S125000x256.Idx) :
    i ∈ ((cfg0.win 5).blk t).view.set ↔ ∀ a : Fin 2, win0_5.index t a * S5000x256.size a ≤ (i a).val ∧ (i a).val < win0_5.index t a * S5000x256.size a + S5000x256.size a := by
  show i ∈ ((View.whole main_v19).slice (win0_5.rect t)).set ↔ _
  rw [View.set_slice_whole, Rect.mem_set_unit]
  exact Iff.rfl

/-- The 25 blocks of 5000 rows tile the array: row `r` is in the block of point `r / 5000`. -/
theorem covered (i : S125000x256.Idx) : ∃ t : Fin cfg0.N, (cfg0.win 5).flush t = true ∧ i ∈ ((cfg0.win 5).blk t).view.set := by
  have hi0 : (i 0).val < 125000 := (i 0).isLt
  have hi1 : (i 1).val < 256 := (i 1).isLt
  have hN : (i 0).val / 5000 < cfg0.N := lt_of_lt_of_eq (by omega : (i 0).val / 5000 < 25) N_0.symm
  obtain ⟨e00, e01, e10, e11, e20, e21, e30, e31, e40, e41, e50, e51⟩ := index_facts ⟨(i 0).val / 5000, hN⟩
  refine ⟨⟨(i 0).val / 5000, hN⟩, flush0_5 _, ?_⟩
  rw [mem_block]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, hN⟩ (1 : Fin 2) * 256 ≤ (i 1).val ∧ (i 1).val < win0_5.index ⟨(i 0).val / 5000, hN⟩ (1 : Fin 2) * 256 + 256
    rw [e51]; omega

/-- The output array after the region: the folded network of the launch arrays. -/
theorem region_result (c : Dev nD) : (dats m 0 c).arrAt 5 cfg0.N = foldedArr m c :=
  (dats m 0 c).arrAt_eq_of_cover 5 (foldedArr m c) (fun t _ => flushed_eq m c t) covered

/-! ## The result -/

/-- The pooled network of the arguments, as the result array. -/
def pooledArr (c : Dev nD) : S500000x64.Idx → EReal := fun i =>
  pooled (m ((c : Thread nD τ).loc main_arg2)) (m ((c : Thread nD τ).loc main_arg12)) (m ((c : Thread nD τ).loc main_arg13))
    (m ((c : Thread nD τ).loc main_arg14)) (m ((c : Thread nD τ).loc main_arg15)) (i 0) (i 1)

/-- The folded network of the launch arrays, unfolded, is the pooled network of the arguments. -/
theorem unfolded_eq_pooled (c : Dev nD) :
    shapeCast S500000x64 (foldedArr m c) shapeCasts_S125000x256_S500000x64 = pooledArr m c := by
  funext i
  have hi0 : (i 0).val < 500000 := (i 0).isLt
  obtain ⟨R, a, o, rfl⟩ : ∃ (R : Fin 125000) (a : Fin 4) (o : Fin 64), i = ix2 (row R a) o :=
    ⟨⟨(i 0).val / 4, by omega⟩, ⟨(i 0).val % 4, by omega⟩, i 1, by
      funext d
      match d with
      | ⟨0, _⟩ => exact Fin.ext (by show (i 0).val = 4 * ((i 0).val / 4) + (i 0).val % 4; omega)
      | ⟨1, _⟩ => rfl⟩
  rw [unfolded_apply]
  show folded (V m c main_v0) (V m c main_v9) (V m c main_v14) (V m c main_v10) (V m c main_v18) R (lane a o) = pooled _ _ _ _ _ (row R a) o
  refine folded_eq_pooled _ _ _ _ _ _ _ _ _ _ ?_ ?_ ?_ ?_ ?_ R a o
  · intro R a j; rw [launch_data]; exact folded_data_apply _ R a j
  · intro a' j a k; rw [launch_w1]; exact (blockdiag_apply eye4 _ a' j a k).trans (congrArg (· * _) (eye_apply a' a))
  · intro a k; rw [launch_b1]; exact tiled_bias_apply _ a k
  · intro a' k a o; rw [launch_w2]; exact (blockdiag_apply eye4 _ a' k a o).trans (congrArg (· * _) (eye_apply a' a))
  · intro a o; rw [launch_b2]; exact tiled_bias_apply _ a o

/-- The result buffer after the line that follows the region. -/
theorem tail_result (c : Dev nD) :
    Pipeline.afterTail₀ cfgs (dats m) 0 (V0 m) [hostOps1] c main_v20 = pooledArr m c := by
  unfold Pipeline.afterTail₀
  show StableHlo.after hostOps1 _ (Proc.devRef .tc main_v20) = _
  after_results
  rw [(Pipeline.withArrays_arr spec0 launch0.win.arr_inj c _ _ 5).trans (region_result m c)]
  exact unfolded_eq_pooled m c

end Cert.KernelIdeal.PoolValue

end
-- ==== Proof.KernelRun.lean ====
/-
  The idealized kernel's run, read: every weakly fair execution ends with the result buffer at the pooled network of the
  arguments (RegionValue.lean) and the sixteen argument arrays as launched.
-/
import proofs.«413229_j21706764714723_3_alg».proof.Proof.RegionValue

noncomputable section

namespace Cert.KernelIdeal.PoolValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The run of the idealized kernel with its result named. -/
theorem run : θ_run (defs (F := Ideal)) (onTc (τ := τ) (main (F := Ideal))) ⟨m, fun _ => 0, ρ⟩ (fun r => ∀ c : Dev nD,
      r.2.mem ((c.tc : Thread nD τ).loc main_v20) = pooledArr m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)) :=
  (θ_run defs _ _).mono (fun r h c => ⟨((h c).2 main_v20 (Pipeline.mem_restRefs_of main_v20 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c)⟩)
    (run_main m ρ)

end Cert.KernelIdeal.PoolValue

end
-- ==== Proof.RefPooled.lean ====
/-
  The reference's result, read at an index, is the pooled network of Algebra.lean: its two `dot_general`s contract the
  second axis of the data with the second axis of each weight matrix (the transposes undone), the biases are broadcast
  along the rows, and the activation between the two layers is `act`.
-/
import proofs.«413229_j21706764714723_3_alg».proof.Proof.Gen.ReferenceIdeal.Read
import proofs.«413229_j21706764714723_3_alg».proof.Proof.Algebra

noncomputable section

open scoped BigOperators

namespace Cert.ReferenceIdeal.RefValue

open Cert.ReferenceIdeal Cert.ReferenceIdeal.Read Idealize.ShloMosaic Idealize.ShloMosaic.ValueIdx Cert.Pooling

variable (x2 : (⟨S500000x64, .f32⟩ : BufTy).Contents (Elt Ideal)) (x12 : (⟨S64x64, .f32⟩ : BufTy).Contents (Elt Ideal))
  (x13 : (⟨S64, .f32⟩ : BufTy).Contents (Elt Ideal)) (x14 : (⟨S64x64, .f32⟩ : BufTy).Contents (Elt Ideal))
  (x15 : (⟨S64, .f32⟩ : BufTy).Contents (Elt Ideal))

/-- The first layer before the activation, at row `e` and hidden unit `k`: `∑ j, E[e, j] · W₁[k, j] + b₁[k]`. -/
theorem preact_apply (i : S500000x64.Idx) (k : Fin 64) :
    val_main_v61 (F := Ideal) x2 x12 x13 (lidx_main_v68 i k)
      = (∑ j : Fin 64, x2 (ix2 (i 0) j) * x12 (ix2 k j)) + x13 (ix1 k) := by
  rw [val_main_v61_apply, val_main_v58_apply, val_main_v60_apply, val_main_v59_apply]
  show (∑ j : Fin 64, _) + _ = _
  have e1 : ∀ j : Fin 64, lidx_main_v58 (lidx_main_v68 i k) j = ix2 (i 0) j := fun j =>
    funext fun a => Fin.ext (by match a with | ⟨0, _⟩ => rfl | ⟨1, _⟩ => rfl)
  have e2 : ∀ j : Fin 64, idx_main_v57 (ridx_main_v58 (lidx_main_v68 i k) j) = ix2 k j := fun j =>
    funext fun a => Fin.ext (by match a with | ⟨0, _⟩ => rfl | ⟨1, _⟩ => rfl)
  have e3 : idx_main_v59 (idx_main_v60 (lidx_main_v68 i k)) = ix1 k :=
    funext fun a => Fin.ext (by match a with | ⟨0, _⟩ => rfl)
  rw [e3]
  refine congrArg (· + x13 (ix1 k)) (Finset.sum_congr rfl fun j _ => ?_)
  rw [val_main_v57_apply, e1, e2]
  rfl

/-- The hidden layer the second product reads. -/
theorem hidden_apply (i : S500000x64.Idx) (k : Fin 64) :
    val_main_v66 (F := Ideal) x2 x12 x13 (lidx_main_v68 i k) = hidden x2 x12 x13 (i 0) k := by
  rw [val_main_v66_apply, val_main_v63_apply, val_main_v65_apply, preact_apply]
  rfl

/-- The reference's result is the pooled network. -/
theorem result_apply (i : S500000x64.Idx) :
    val_main_v71 (F := Ideal) x2 x12 x13 x14 x15 i = pooled x2 x12 x13 x14 x15 (i 0) (i 1) := by
  rw [val_main_v71_apply, val_main_v68_apply, val_main_v70_apply, val_main_v69_apply]
  show (∑ k : Fin 64, _) + _ = _
  unfold pooled
  have e1 : ∀ k : Fin 64, idx_main_v67 (ridx_main_v68 i k) = ix2 (i 1) k := fun k =>
    funext fun a => Fin.ext (by match a with | ⟨0, _⟩ => rfl | ⟨1, _⟩ => rfl)
  have e2 : idx_main_v69 (idx_main_v70 i) = ix1 (i 1) :=
    funext fun a => Fin.ext (by match a with | ⟨0, _⟩ => rfl)
  rw [e2]
  refine congrArg (· + x15 (ix1 (i 1))) (Finset.sum_congr rfl fun k _ => ?_)
  rw [hidden_apply, val_main_v67_apply, e1]
  rfl

end Cert.ReferenceIdeal.RefValue

end
-- ==== Proof.lean ====
/-
  A two-layer network pooled over 500000 edges, `pooled e o = ∑ k, act (∑ j, E[e, j] · W₁[k, j] + b₁[k]) · W₂[o, k] + b₂[o]`
  with `act z = z` for `z > 0` and `c · z` otherwise, computed two ways and equal on the extended reals.

  The reference computes it row by row (Proof/RefPooled.lean, over its generated run); the attention branch it also
  evaluates does not reach its result. The kernel folds four consecutive rows into one row of 256 lanes, multiplies by the
  block-diagonal matrices `I₄ ⊗ W₁ᵀ`, `I₄ ⊗ W₂ᵀ` with the biases tiled four times, 5000 folded rows per grid point, and
  unfolds the result (Proof/BodyValue.lean: the body's stored value; Proof/HostLayout.lean: the launch arrays and the
  unfolding at an index; Proof/RegionValue.lean: the 25 blocks tile the output array; Proof/KernelRun.lean: the run).
  The two agree because a product with a block-diagonal matrix only sees the diagonal block of the lane group it lands
  in, and `0 · x = 0`, `1 · x = x` hold for every extended real (Proof/Algebra.lean): no input needs to be finite, so
  the precondition is never opened. The three frames are the generated ones (the reference's is its generated run with
  the result dropped); the idealization rewrote nothing, so there is nothing to preserve.
-/
import proofs.«413229_j21706764714723_3_alg».proof.Defs
import proofs.«413229_j21706764714723_3_alg».proof.Proof.Gen.Kernel
import proofs.«413229_j21706764714723_3_alg».proof.Proof.Gen.Kernel.Skeleton
import proofs.«413229_j21706764714723_3_alg».proof.Proof.Gen.Kernel.Launch
import proofs.«413229_j21706764714723_3_alg».proof.Proof.Gen.Kernel.Points
import proofs.«413229_j21706764714723_3_alg».proof.Proof.Gen.Kernel.Frame
import proofs.«413229_j21706764714723_3_alg».proof.Proof.Gen.KernelIdeal
import proofs.«413229_j21706764714723_3_alg».proof.Proof.Gen.KernelIdeal.Skeleton
import proofs.«413229_j21706764714723_3_alg».proof.Proof.Gen.KernelIdeal.Launch
import proofs.«413229_j21706764714723_3_alg».proof.Proof.Gen.KernelIdeal.Points
import proofs.«413229_j21706764714723_3_alg».proof.Proof.Gen.KernelIdeal.Frame
import proofs.«413229_j21706764714723_3_alg».proof.Proof.Gen.ReferenceIdeal
import proofs.«413229_j21706764714723_3_alg».proof.Proof.Gen.ReferenceIdeal.Run
import proofs.«413229_j21706764714723_3_alg».proof.Proof.Gen.ReferenceIdeal.Read
import proofs.«413229_j21706764714723_3_alg».proof.Proof.Gen.Pre_finite_inputs
import proofs.«413229_j21706764714723_3_alg».proof.Proof.KernelRun
import proofs.«413229_j21706764714723_3_alg».proof.Proof.RefPooled
import Idealize.ShloMosaic.Adequacy
import Idealize.ShloMosaic.Init

noncomputable section

namespace Cert.Proof

open Idealize.ShloMosaic Idealize.SL.Sem

/-- The word-level kernel terminates, faults nowhere and leaves its arguments as launched. -/
theorem frame_kernel : Cert.frame_Kernel := fun m ρ _ => Cert.Kernel.Gen.frame m ρ
/-- So does the idealized kernel. -/
theorem frame_kernelIdeal : Cert.frame_KernelIdeal := fun m ρ _ => Cert.KernelIdeal.Gen.frame m ρ
/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- Both programs end with the pooled network of the (agreeing) arguments in their result buffers. -/
theorem algebraic : Cert.algebraic_KernelIdeal_ReferenceIdeal := by
  intro m ρ m' ρ' _ hagree
  refine ⟨fun c => Cert.KernelIdeal.PoolValue.pooledArr m c, Cert.KernelIdeal.PoolValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v71_eq]
  funext i
  rw [Cert.ReferenceIdeal.RefValue.result_apply]
  obtain ⟨h0, h1, h2, h3, h4, h5, h6, h7, h8, h9, h10, h11, h12, h13, h14, h15⟩ := hagree c
  rw [h2, h12, h13, h14, h15]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
